-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S128x128 : Shape := ⟨2, ![128, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg14 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg11 : FVec F S128x128 .f32) (main_arg12 : FVec F S128 .f32) (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S200000x128 .f32) (main_arg1 : FVec F S200000x128 .f32) (main_arg2 : FVec F S200000x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S200000x128 .f32 := Host.absf main_arg2
  let main_cst_2 : FVec F S_ .f32 := constant S_ .f32 0x7F800000#32
  let main_v10 : FVec F S200000x128 .f32 := broadcastInDim S200000x128 ![] bcast_S_S200000x128 main_cst_2
  let main_v11 : IVec S200000x128 1 := cmpf .olt main_v9 main_v10
  let main_c_3 : IVec S_ 1 := constantI S_ 1 1#1
  let main_v12 : IVec S_ 1 := (fun x v => Host.reduce IntOp.andi x v reducesTo_S200000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S200000x128 : Shape := ⟨2, ![200000, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x384 : Shape := ⟨2, ![128, 384]⟩
abbrev S1x384 : Shape := ⟨2, ![1, 384]⟩
abbrev S2000x128 : Shape := ⟨2, ![2000, 128]⟩
abbrev S2000x384 : Shape := ⟨2, ![2000, 384]⟩

abbrev nBuf : Space → Nat
  | .hbm => 26
  | .vmem => 12
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S200000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S384x128, .f32⟩
  | .hbm, ⟨16, _⟩ => ⟨S384, .f32⟩
  | .hbm, ⟨17, _⟩ => ⟨S384x128, .f32⟩
  | .hbm, ⟨18, _⟩ => ⟨S384, .f32⟩
  | .hbm, ⟨19, _⟩ => ⟨S128x384, .f32⟩
  | .hbm, ⟨20, _⟩ => ⟨S128x384, .bf16⟩
  | .hbm, ⟨21, _⟩ => ⟨S128x384, .f32⟩
  | .hbm, ⟨22, _⟩ => ⟨S128x384, .bf16⟩
  | .hbm, ⟨23, _⟩ => ⟨S1x384, .f32⟩
  | .hbm, ⟨24, _⟩ => ⟨S1x384, .f32⟩
  | .hbm, ⟨25, _⟩ => ⟨S200000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x384, .bf16⟩
  | .local _ .vmem, ⟨7, _⟩ => ⟨S1x384, .f32⟩
  | .local _ .vmem, ⟨8, _⟩ => ⟨S128x384, .bf16⟩
  | .local _ .vmem, ⟨9, _⟩ => ⟨S1x384, .f32⟩
  | .local _ .vmem, ⟨10, _⟩ => ⟨S2000x128, .f32⟩
  | .local _ .vmem, ⟨11, _⟩ => ⟨S2000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S128x128_S128x128_S128x128_S384x128_d0 : Shape.Concatenates [S128x128, S128x128, S128x128] S384x128 0
  concatenates_S128_S128_S128_S384_d0 : Shape.Concatenates [S128, S128, S128] S384 0
  transposes_S384x128_S128x384_1_0 : S384x128.Transposes [1, 0] S128x384
  bitsLt_bf16_f32 : FTy.bits .bf16 < FTy.bits .f32
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  slices_S2000x384_o0_0_S2000x128 : S2000x384.Slices ![0, 0] S2000x128
  slices_S2000x384_o0_128_S2000x128 : S2000x384.Slices ![0, 128] S2000x128
  slices_S2000x384_o0_256_S2000x128 : S2000x384.Slices ![0, 256] S2000x128
  dot_S2000x128_S128x384_S2000x384_1_0_0_1_n_n_wf : DotDims.WF S2000x128 S128x384 S2000x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S200000x128.size a
  hwx0_0 : ∀ i : grid0.Coords, EltTy.bits .f32 = 32 ∨ (Rect.block (s := S200000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S200000x128.size a
  hwx0_1 : ∀ i : grid0.Coords, EltTy.bits .f32 = 32 ∨ (Rect.block (s := S200000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S200000x128.size a
  hwx0_2 : ∀ i : grid0.Coords, EltTy.bits .f32 = 32 ∨ (Rect.block (s := S200000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .bf16 = 32 ∨ (Rect.block (s := S128x384) S128x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .bf16 = 32 ∨ (Rect.block (s := S128x384) S128x384.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S200000x128.size a
  hwx0_7 : ∀ i : grid0.Coords, EltTy.bits .f32 = 32 ∨ (Rect.block (s := S200000x128) S2000x128.size (cc0_transform_7 i) (hinb0_7 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200000x128 : Shape := ⟨2, ![200000, 128]⟩
abbrev S128x128 : Shape := ⟨2, ![128, 128]⟩
abbrev S128 : Shape := ⟨1, ![128]⟩
abbrev S384x128 : Shape := ⟨2, ![384, 128]⟩
abbrev S384 : Shape := ⟨1, ![384]⟩
abbrev S128x384 : Shape := ⟨2, ![128, 384]⟩
abbrev S200000x384 : Shape := ⟨2, ![200000, 384]⟩
abbrev S1x384 : Shape := ⟨2, ![1, 384]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S200000x128, .f32⟩
  | .hbm, ⟨2, _⟩ => ⟨S200000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S200000x128, .f32⟩
  | .hbm, ⟨16, _⟩ => ⟨S384x128, .f32⟩
  | .hbm, ⟨17, _⟩ => ⟨S384, .f32⟩
  | .hbm, ⟨18, _⟩ => ⟨S384x128, .f32⟩
  | .hbm, ⟨19, _⟩ => ⟨S384, .f32⟩
  | .hbm, ⟨20, _⟩ => ⟨S128x384, .f32⟩
  | .hbm, ⟨21, _⟩ => ⟨S200000x384, .f32⟩
  | .hbm, ⟨22, _⟩ => ⟨S1x384, .f32⟩
  | .hbm, ⟨23, _⟩ => ⟨S200000x384, .f32⟩
  | .hbm, ⟨24, _⟩ => ⟨S200000x384, .f32⟩
  | .hbm, ⟨25, _⟩ => ⟨S128x384, .f32⟩
  | .hbm, ⟨26, _⟩ => ⟨S200000x384, .f32⟩
  | .hbm, ⟨27, _⟩ => ⟨S1x384, .f32⟩
  | .hbm, ⟨28, _⟩ => ⟨S200000x384, .f32⟩
  | .hbm, ⟨29, _⟩ => ⟨S200000x384, .f32⟩
  | .hbm, ⟨30, _⟩ => ⟨S200000x128, .f32⟩
  | .hbm, ⟨31, _⟩ => ⟨S200000x128, .f32⟩
  | .hbm, ⟨32, _⟩ => ⟨S200000x128, .f32⟩
  | .hbm, ⟨33, _⟩ => ⟨S200000x128, .f32⟩
  | .hbm, ⟨34, _⟩ => ⟨S200000x128, .f32⟩
  | .hbm, ⟨35, _⟩ => ⟨S200000x128, .f32⟩
  | .hbm, ⟨36, _⟩ => ⟨S200000x128, .f32⟩
  | .hbm, ⟨37, _⟩ => ⟨S200000x128, .f32⟩
  | .hbm, ⟨38, _⟩ => ⟨S200000x128, .f32⟩
  | .hbm, ⟨39, _⟩ => ⟨S_, .f32⟩
  | .hbm, ⟨40, _⟩ => ⟨S200000x128, .f32⟩
  | .hbm, ⟨41, _⟩ => ⟨S200000x128, .f32⟩
  | .hbm, ⟨42, _⟩ => ⟨S_, .f32⟩
  | .hbm, ⟨43, _⟩ => ⟨S200000x128, .f32⟩
  | .hbm, ⟨44, _⟩ => ⟨S200000x128, .f32⟩
  | .hbm, ⟨45, _⟩ => ⟨S200000x128, .f32⟩
  | .hbm, ⟨46, _⟩ => ⟨S200000x128, .f32⟩
  | .hbm, ⟨47, _⟩ => ⟨S200000x128, .f32⟩
  | .hbm, ⟨48, _⟩ => ⟨S_, .f32⟩
  | .hbm, ⟨49, _⟩ => ⟨S200000x128, .f32⟩
  | .hbm, ⟨50, _⟩ => ⟨S200000x128, .f32⟩
  | .hbm, ⟨51, _⟩ => ⟨S_, .f32⟩
  | .hbm, ⟨52, _⟩ => ⟨S200000x128, .f32⟩
  | .hbm, ⟨53, _⟩ => ⟨S200000x128, .f32⟩
  | .hbm, ⟨54, _⟩ => ⟨S200000x128, .f32⟩
  | .hbm, ⟨55, _⟩ => ⟨S200000x128, .f32⟩
  | .hbm, ⟨56, _⟩ => ⟨S200000x128, .f32⟩
  | .hbm, ⟨57, _⟩ => ⟨S_, .f32⟩
  | .hbm, ⟨58, _⟩ => ⟨S200000x128, .f32⟩
  | .hbm, ⟨59, _⟩ => ⟨S200000x128, .f32⟩
  | .hbm, ⟨60, _⟩ => ⟨S200000x128, .f32⟩
  | .hbm, ⟨61, _⟩ => ⟨S200000x128, .f32⟩
  | .hbm, ⟨62, _⟩ => ⟨S200000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩
abbrev main_v32 : Ref sig .tc := ⟨.hbm, 50, rfl⟩
abbrev main_cst_2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_3 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  concatenates_S128x128_S128x128_S128x128_S384x128_d0 : Shape.Concatenates [S128x128, S128x128, S128x128] S384x128 0
  concatenates_S128_S128_S128_S384_d0 : Shape.Concatenates [S128, S128, S128] S384 0
  transposes_S384x128_S128x384_1_0 : S384x128.Transposes [1, 0] S128x384
  bcast_S384_S1x384_1 : S384.BroadcastsInDim S1x384 (![1] : Fin 1 → Fin S1x384.rank)
  bcast_S1x384_S200000x384_0_1 : S1x384.BroadcastsInDim S200000x384 (![0, 1] : Fin 2 → Fin S200000x384.rank)
  slices_S200000x384_S200000x128_0_0 : S200000x384.Slices ![0, 0] S200000x128
  slices_S200000x384_S200000x128_0_128 : S200000x384.Slices ![0, 128] S200000x128
  slices_S200000x384_S200000x128_0_256 : S200000x384.Slices ![0, 256] S200000x128
  bcast_S_S200000x128 : S_.BroadcastsInDim S200000x128 (![] : Fin 0 → Fin S200000x128.rank)
  dot_S200000x128_S128x384_S200000x384_1_0_0_1_n_n_wf : DotDims.WF S200000x128 S128x384 S200000x384 [1] [0] [0] [1] [] []

variable [Facts₀]

def dot_S200000x128_S128x384_S200000x384_1_0_0_1_n_n : DotDims S200000x128 S128x384 S200000x384 where
  lhsContracting := [1]
  rhsContracting := [0]
  lhsNonContracting := [0]
  rhsNonContracting := [1]
  lhsBatch := []
  rhsBatch := []
  wf := dot_S200000x128_S128x384_S200000x384_1_0_0_1_n_n_wf

class Facts : Prop extends Facts₀ where

variable [Facts]
-- ==== Proof.FrameBits.lean ====
/-
  The gated node update, one row block per grid point: the frame.

  The program is ten host operations and one pipelined region over 100 grid points. The host stretch packs
  the six 128×128 weight matrices into two 128×384 operands (three matrices stacked along the rows, transposed,
  narrowed) and the six bias rows into two 1×384 rows; it writes ten buffers of its own and none of the
  fifteen arguments. At grid point `t` the region hands the body rows `2000 t … 2000 t + 1999` of the three
  node arrays, and at every point the same packed weights and biases; the body loads the seven blocks whole,
  computes, and overwrites the whole output block, which the region writes back to the same rows of the result.

  So: every weakly fair run ends, nothing faults, each argument array ends as it began, and the result array ends
  as what the 100 points wrote back — block `t` being the body's one payload of the seven input blocks at `t`.
  Stated at any float instance.
-/
import proofs.«120250_j57363583205517_1_alg».proof.Proof.Gen.Kernel.Launch
import proofs.«120250_j57363583205517_1_alg».proof.Proof.Gen.Kernel.Skeleton
import proofs.«120250_j57363583205517_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.NodeUpdate

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretch before the region -/

/-- What core `c`'s buffers hold when the region is entered: the launch contents after the ten host operations. -/
abbrev V (c : Dev nD) (b : Ref sig .tc) : Buf (Elt F) ((c : Thread nD τ).loc b) :=
  StableHlo.after hostOps0 (fun b => m (c, b)) b

/-- None of the ten host operations allocates. -/
theorem hostOps0_fresh : (hostOps0 : List (HloOp τ sig (Elt F))).Forall fun op => op.fresh = ∅ := by
  simp only [List.Forall]; repeat' constructor

/-- The program is the host stretch followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host stretch writes `main_v0 … main_v9` and nothing else: any other buffer is found as launched. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    V m c b = m ((c : Thread nD τ).loc b) := by
  obtain ⟨h0, h1, h2, h3, h4, h5, h6, h7, h8, h9⟩ := hb
  exact StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-- `main_arg0` is none of the ten buffers the host stretch writes. -/
theorem V_main_arg0 (c : Dev nD) : V m c main_arg0 = m ((c : Thread nD τ).loc main_arg0) :=
  V_of_not_written m c main_arg0 (by decide)
/-- `main_arg1` is none of the ten buffers the host stretch writes. -/
theorem V_main_arg1 (c : Dev nD) : V m c main_arg1 = m ((c : Thread nD τ).loc main_arg1) :=
  V_of_not_written m c main_arg1 (by decide)
/-- `main_arg2` is none of the ten buffers the host stretch writes. -/
theorem V_main_arg2 (c : Dev nD) : V m c main_arg2 = m ((c : Thread nD τ).loc main_arg2) :=
  V_of_not_written m c main_arg2 (by decide)
/-- `main_arg3` is none of the ten buffers the host stretch writes. -/
theorem V_main_arg3 (c : Dev nD) : V m c main_arg3 = m ((c : Thread nD τ).loc main_arg3) :=
  V_of_not_written m c main_arg3 (by decide)
/-- `main_arg4` is none of the ten buffers the host stretch writes. -/
theorem V_main_arg4 (c : Dev nD) : V m c main_arg4 = m ((c : Thread nD τ).loc main_arg4) :=
  V_of_not_written m c main_arg4 (by decide)
/-- `main_arg5` is none of the ten buffers the host stretch writes. -/
theorem V_main_arg5 (c : Dev nD) : V m c main_arg5 = m ((c : Thread nD τ).loc main_arg5) :=
  V_of_not_written m c main_arg5 (by decide)
/-- `main_arg6` is none of the ten buffers the host stretch writes. -/
theorem V_main_arg6 (c : Dev nD) : V m c main_arg6 = m ((c : Thread nD τ).loc main_arg6) :=
  V_of_not_written m c main_arg6 (by decide)
/-- `main_arg7` is none of the ten buffers the host stretch writes. -/
theorem V_main_arg7 (c : Dev nD) : V m c main_arg7 = m ((c : Thread nD τ).loc main_arg7) :=
  V_of_not_written m c main_arg7 (by decide)
/-- `main_arg8` is none of the ten buffers the host stretch writes. -/
theorem V_main_arg8 (c : Dev nD) : V m c main_arg8 = m ((c : Thread nD τ).loc main_arg8) :=
  V_of_not_written m c main_arg8 (by decide)
/-- `main_arg9` is none of the ten buffers the host stretch writes. -/
theorem V_main_arg9 (c : Dev nD) : V m c main_arg9 = m ((c : Thread nD τ).loc main_arg9) :=
  V_of_not_written m c main_arg9 (by decide)
/-- `main_arg10` is none of the ten buffers the host stretch writes. -/
theorem V_main_arg10 (c : Dev nD) : V m c main_arg10 = m ((c : Thread nD τ).loc main_arg10) :=
  V_of_not_written m c main_arg10 (by decide)
/-- `main_arg11` is none of the ten buffers the host stretch writes. -/
theorem V_main_arg11 (c : Dev nD) : V m c main_arg11 = m ((c : Thread nD τ).loc main_arg11) :=
  V_of_not_written m c main_arg11 (by decide)
/-- `main_arg12` is none of the ten buffers the host stretch writes. -/
theorem V_main_arg12 (c : Dev nD) : V m c main_arg12 = m ((c : Thread nD τ).loc main_arg12) :=
  V_of_not_written m c main_arg12 (by decide)
/-- `main_arg13` is none of the ten buffers the host stretch writes. -/
theorem V_main_arg13 (c : Dev nD) : V m c main_arg13 = m ((c : Thread nD τ).loc main_arg13) :=
  V_of_not_written m c main_arg13 (by decide)
/-- `main_arg14` is none of the ten buffers the host stretch writes. -/
theorem V_main_arg14 (c : Dev nD) : V m c main_arg14 = m ((c : Thread nD τ).loc main_arg14) :=
  V_of_not_written m c main_arg14 (by decide)

/-! ## The blocks the body is handed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point: where it is fetched, by the fetch;
    where it is not (the packed weights and biases after the first point), because its block index has not moved
    and the body left the buffer as it found it. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run to the region's post -/

/-- The three node arrays are staged inputs, never written back; the twelve weight and bias arguments bypass the
    region; each is found by the region as launched. So a state satisfying the region's post holds every argument
    array as it was launched. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩

/-- The frame claim's post from a run to the region's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_of_post m dats hA r h c) h

/-! ## The body -/

abbrev rRows : Rect S2000x128 := Rect.unit (s := S2000x128) ![0, 0] S2000x128.size inb_S2000x128_S2000x128_0_0
abbrev rWeights : Rect S128x384 := Rect.unit (s := S128x384) ![0, 0] S128x384.size inb_S128x384_S128x384_0_0
abbrev rBias : Rect S1x384 := Rect.unit (s := S1x384) ![0, 0] S1x384.size inb_S1x384_S1x384_0_0

/-- What the output buffer holds after the body: its one store, of the payload of the seven whole blocks. -/
def outBlock (x0 x1 x2 : Vec F S2000x128 .f32) (x3 : Vec F S128x384 .bf16) (x4 : Vec F S1x384 .f32)
    (x5 : Vec F S128x384 .bf16) (x6 : Vec F S1x384 .f32) : Vec F S2000x128 .f32 :=
  View.canon [⟨rRows, k0_pay1 (View.ld x0 rRows) (View.ld x1 rRows) (View.ld x2 rRows) (View.ld x3 rWeights) (View.ld x4 rBias)
    (View.ld x5 rWeights) (View.ld x6 rBias)⟩]

/-- The one store is of the whole buffer. -/
theorem outBlock_cover (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

set_option maxHeartbeats 1000000 in
/-- The body on eight whole staging buffers — the seven inputs' at known contents, the output's at anything —
    runs to the end leaving the inputs as they were and the output at `outBlock` of them. (It loads the output
    buffer once before the store; the value is not used.) -/
theorem sound_kernel (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S128x384 .bf16) (harg4 : arg4.IsWhole)
    (arg5 : Memref sig .tc .vmem S1x384 .f32) (harg5 : arg5.IsWhole) (arg6 : Memref sig .tc .vmem S128x384 .bf16) (harg6 : arg6.IsWhole)
    (arg7 : Memref sig .tc .vmem S1x384 .f32) (harg7 : arg7.IsWhole) (arg8 : Memref sig .tc .vmem S2000x128 .f32) (harg8 : arg8.IsWhole)
    (x0 x1 x2 : Vec F S2000x128 .f32) (x3 : Vec F S128x384 .bf16) (x4 : Vec F S1x384 .f32) (x5 : Vec F S128x384 .bf16) (x6 : Vec F S1x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outBlock_cover _)

/-! ## The region's proof data -/

/-- On core `c`: the arrays as the region finds them; after the body at point `t` each input buffer at its block and
    the output buffer at `outBlock` of the seven input blocks; nothing of the body's own carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
/-- What point `t` leaves in the output buffer. -/
theorem after7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d
theorem before5 (c : Dev nD) (t : Fin cfg0.N) (d) : (dats m 0 c).before 5 t d = iblk m c 5 t := before_in5 m (dats m 0 c) (A_eq m c 5) (after5 m c) t d
theorem before6 (c : Dev nD) (t : Fin cfg0.N) (d) : (dats m 0 c).before 6 t d = iblk m c 6 t := before_in6 m (dats m 0 c) (A_eq m c 6) (after6 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the seven input buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t)
    (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates, faults nowhere, and ends with each window's array at what the proof data
    says (an input as found, the result at the 100 write-backs) and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the fifteen argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.NodeUpdate

end
-- ==== Proof.FrameIdeal.lean ====
/-
  The gated node update, one row block per grid point: the frame.

  The program is ten host operations and one pipelined region over 100 grid points. The host stretch packs
  the six 128×128 weight matrices into two 128×384 operands (three matrices stacked along the rows, transposed,
  narrowed) and the six bias rows into two 1×384 rows; it writes ten buffers of its own and none of the
  fifteen arguments. At grid point `t` the region hands the body rows `2000 t … 2000 t + 1999` of the three
  node arrays, and at every point the same packed weights and biases; the body loads the seven blocks whole,
  computes, and overwrites the whole output block, which the region writes back to the same rows of the result.

  So: every weakly fair run ends, nothing faults, each argument array ends as it began, and the result array ends
  as what the 100 points wrote back — block `t` being the body's one payload of the seven input blocks at `t`.
  Stated at any float instance.
-/
import proofs.«120250_j57363583205517_1_alg».proof.Proof.Gen.KernelIdeal.Launch
import proofs.«120250_j57363583205517_1_alg».proof.Proof.Gen.KernelIdeal.Skeleton
import proofs.«120250_j57363583205517_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.NodeUpdate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host stretch before the region -/

/-- What core `c`'s buffers hold when the region is entered: the launch contents after the ten host operations. -/
abbrev V (c : Dev nD) (b : Ref sig .tc) : Buf (Elt F) ((c : Thread nD τ).loc b) :=
  StableHlo.after hostOps0 (fun b => m (c, b)) b

/-- None of the ten host operations allocates. -/
theorem hostOps0_fresh : (hostOps0 : List (HloOp τ sig (Elt F))).Forall fun op => op.fresh = ∅ := by
  simp only [List.Forall]; repeat' constructor

/-- The program is the host stretch followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host stretch writes `main_v0 … main_v9` and nothing else: any other buffer is found as launched. -/
theorem V_of_not_written (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    V m c b = m ((c : Thread nD τ).loc b) := by
  obtain ⟨h0, h1, h2, h3, h4, h5, h6, h7, h8, h9⟩ := hb
  exact StableHlo.after_of_forall_not_mem (b := Proc.devRef .tc b) _ _ (List.forall_iff_forall_mem.mp (by
    simp only [hostOps0, List.Forall, StableHlo.nary_writes, StableHlo.unary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-- `main_arg0` is none of the ten buffers the host stretch writes. -/
theorem V_main_arg0 (c : Dev nD) : V m c main_arg0 = m ((c : Thread nD τ).loc main_arg0) :=
  V_of_not_written m c main_arg0 (by decide)
/-- `main_arg1` is none of the ten buffers the host stretch writes. -/
theorem V_main_arg1 (c : Dev nD) : V m c main_arg1 = m ((c : Thread nD τ).loc main_arg1) :=
  V_of_not_written m c main_arg1 (by decide)
/-- `main_arg2` is none of the ten buffers the host stretch writes. -/
theorem V_main_arg2 (c : Dev nD) : V m c main_arg2 = m ((c : Thread nD τ).loc main_arg2) :=
  V_of_not_written m c main_arg2 (by decide)
/-- `main_arg3` is none of the ten buffers the host stretch writes. -/
theorem V_main_arg3 (c : Dev nD) : V m c main_arg3 = m ((c : Thread nD τ).loc main_arg3) :=
  V_of_not_written m c main_arg3 (by decide)
/-- `main_arg4` is none of the ten buffers the host stretch writes. -/
theorem V_main_arg4 (c : Dev nD) : V m c main_arg4 = m ((c : Thread nD τ).loc main_arg4) :=
  V_of_not_written m c main_arg4 (by decide)
/-- `main_arg5` is none of the ten buffers the host stretch writes. -/
theorem V_main_arg5 (c : Dev nD) : V m c main_arg5 = m ((c : Thread nD τ).loc main_arg5) :=
  V_of_not_written m c main_arg5 (by decide)
/-- `main_arg6` is none of the ten buffers the host stretch writes. -/
theorem V_main_arg6 (c : Dev nD) : V m c main_arg6 = m ((c : Thread nD τ).loc main_arg6) :=
  V_of_not_written m c main_arg6 (by decide)
/-- `main_arg7` is none of the ten buffers the host stretch writes. -/
theorem V_main_arg7 (c : Dev nD) : V m c main_arg7 = m ((c : Thread nD τ).loc main_arg7) :=
  V_of_not_written m c main_arg7 (by decide)
/-- `main_arg8` is none of the ten buffers the host stretch writes. -/
theorem V_main_arg8 (c : Dev nD) : V m c main_arg8 = m ((c : Thread nD τ).loc main_arg8) :=
  V_of_not_written m c main_arg8 (by decide)
/-- `main_arg9` is none of the ten buffers the host stretch writes. -/
theorem V_main_arg9 (c : Dev nD) : V m c main_arg9 = m ((c : Thread nD τ).loc main_arg9) :=
  V_of_not_written m c main_arg9 (by decide)
/-- `main_arg10` is none of the ten buffers the host stretch writes. -/
theorem V_main_arg10 (c : Dev nD) : V m c main_arg10 = m ((c : Thread nD τ).loc main_arg10) :=
  V_of_not_written m c main_arg10 (by decide)
/-- `main_arg11` is none of the ten buffers the host stretch writes. -/
theorem V_main_arg11 (c : Dev nD) : V m c main_arg11 = m ((c : Thread nD τ).loc main_arg11) :=
  V_of_not_written m c main_arg11 (by decide)
/-- `main_arg12` is none of the ten buffers the host stretch writes. -/
theorem V_main_arg12 (c : Dev nD) : V m c main_arg12 = m ((c : Thread nD τ).loc main_arg12) :=
  V_of_not_written m c main_arg12 (by decide)
/-- `main_arg13` is none of the ten buffers the host stretch writes. -/
theorem V_main_arg13 (c : Dev nD) : V m c main_arg13 = m ((c : Thread nD τ).loc main_arg13) :=
  V_of_not_written m c main_arg13 (by decide)
/-- `main_arg14` is none of the ten buffers the host stretch writes. -/
theorem V_main_arg14 (c : Dev nD) : V m c main_arg14 = m ((c : Thread nD τ).loc main_arg14) :=
  V_of_not_written m c main_arg14 (by decide)

/-! ## The blocks the body is handed -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point: where it is fetched, by the fetch;
    where it is not (the packed weights and biases after the first point), because its block index has not moved
    and the body left the buffer as it found it. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run to the region's post -/

/-- The three node arrays are staged inputs, never written back; the twelve weight and bias arguments bypass the
    region; each is found by the region as launched. So a state satisfying the region's post holds every argument
    array as it was launched. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩

/-- The frame claim's post from a run to the region's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_of_post m dats hA r h c) h

/-! ## The body -/

abbrev rRows : Rect S2000x128 := Rect.unit (s := S2000x128) ![0, 0] S2000x128.size inb_S2000x128_S2000x128_0_0
abbrev rWeights : Rect S128x384 := Rect.unit (s := S128x384) ![0, 0] S128x384.size inb_S128x384_S128x384_0_0
abbrev rBias : Rect S1x384 := Rect.unit (s := S1x384) ![0, 0] S1x384.size inb_S1x384_S1x384_0_0

/-- What the output buffer holds after the body: its one store, of the payload of the seven whole blocks. -/
def outBlock (x0 x1 x2 : Vec F S2000x128 .f32) (x3 : Vec F S128x384 .bf16) (x4 : Vec F S1x384 .f32)
    (x5 : Vec F S128x384 .bf16) (x6 : Vec F S1x384 .f32) : Vec F S2000x128 .f32 :=
  View.canon [⟨rRows, k0_pay1 (View.ld x0 rRows) (View.ld x1 rRows) (View.ld x2 rRows) (View.ld x3 rWeights) (View.ld x4 rBias)
    (View.ld x5 rWeights) (View.ld x6 rBias)⟩]

/-- The one store is of the whole buffer. -/
theorem outBlock_cover (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

set_option maxHeartbeats 1000000 in
/-- The body on eight whole staging buffers — the seven inputs' at known contents, the output's at anything —
    runs to the end leaving the inputs as they were and the output at `outBlock` of them. (It loads the output
    buffer once before the store; the value is not used.) -/
theorem sound_kernel (c : Dev nD) (E : Set ℕ) (i : grid0.Coords)
    (arg1 : Memref sig .tc .vmem S2000x128 .f32) (harg1 : arg1.IsWhole) (arg2 : Memref sig .tc .vmem S2000x128 .f32) (harg2 : arg2.IsWhole)
    (arg3 : Memref sig .tc .vmem S2000x128 .f32) (harg3 : arg3.IsWhole) (arg4 : Memref sig .tc .vmem S128x384 .bf16) (harg4 : arg4.IsWhole)
    (arg5 : Memref sig .tc .vmem S1x384 .f32) (harg5 : arg5.IsWhole) (arg6 : Memref sig .tc .vmem S128x384 .bf16) (harg6 : arg6.IsWhole)
    (arg7 : Memref sig .tc .vmem S1x384 .f32) (harg7 : arg7.IsWhole) (arg8 : Memref sig .tc .vmem S2000x128 .f32) (harg8 : arg8.IsWhole)
    (x0 x1 x2 : Vec F S2000x128 .f32) (x3 : Vec F S128x384 .bf16) (x4 : Vec F S1x384 .f32) (x5 : Vec F S128x384 .bf16) (x6 : Vec F S1x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (outBlock_cover _)

/-! ## The region's proof data -/

/-- On core `c`: the arrays as the region finds them; after the body at point `t` each input buffer at its block and
    the output buffer at `outBlock` of the seven input blocks; nothing of the body's own carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
/-- What point `t` leaves in the output buffer. -/
theorem after7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d
theorem before5 (c : Dev nD) (t : Fin cfg0.N) (d) : (dats m 0 c).before 5 t d = iblk m c 5 t := before_in5 m (dats m 0 c) (A_eq m c 5) (after5 m c) t d
theorem before6 (c : Dev nD) (t : Fin cfg0.N) (d) : (dats m 0 c).before 6 t d = iblk m c 6 t := before_in6 m (dats m 0 c) (A_eq m c 6) (after6 m c) t d

/-! ## The body at a grid point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- At any point the seven input buffers hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t)
    (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution terminates, faults nowhere, and ends with each window's array at what the proof data
    says (an input as found, the result at the 100 write-backs) and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the fifteen argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.NodeUpdate

end
-- ==== Proof.RowSpec.lean ====
/-
  The gated node update of one row, as a function on the extended reals.

  A node has a 128-vector of incoming messages `xm + xcm` and a 128-vector hidden state `xh`. Two affine maps into
  384 = 3·128 features are applied, one to the messages and one to the hidden state,
      a n = Σₖ (xm k + xcm k) · wm (k, n) + bm n,        b n = Σₖ xh k · wh (k, n) + bh n,
  and their three 128-wide column groups drive a reset gate, an update gate and a candidate state:
      reset j  = logistic (a j + b j),
      update j = logistic (a (128 + j) + b (128 + j)),
      cand j   = tanh (a (256 + j) + reset j · b (256 + j)),
      new j    = (1 − update j) · xh j + update j · cand j.
  Every operation is the exact one on the extended reals; the constant one is kept as the binary word both programs
  print, and only its meeting with the sigmoid written as a quotient needs its value.
-/
import Idealize.ShloMosaic.PureOps.Ideal
import Idealize.ShloMosaic.PureOps.Ideal.Laws
import Idealize.ShloMosaic.Lib.ValueIdx
import Idealize.ShloMosaic.PureOps.ShapeOps

noncomputable section

namespace Cert.NodeUpdate

open Idealize.ShloMosaic Idealize.ShloMosaic.ValueIdx

/-- Indices of a packed weight operand: 128 input features by 384 stacked output features. -/
abbrev WIdx : Type := (⟨2, ![128, 384]⟩ : Shape).Idx

/-- One affine projection of a row `x` at output feature `n`. -/
def proj (x : Fin 128 → EReal) (w : WIdx → EReal) (b : Fin 384 → EReal) (n : Fin 384) : EReal :=
  (∑ k : Fin 128, x k * w (ix2 k n)) + b n

/-- Feature `j` of the reset, update and candidate column groups. -/
abbrev colR (j : Fin 128) : Fin 384 := ⟨0 + j.val, by omega⟩
abbrev colU (j : Fin 128) : Fin 384 := ⟨128 + j.val, by omega⟩
abbrev colH (j : Fin 128) : Fin 384 := ⟨256 + j.val, by omega⟩

/-- The word both programs print for the constant one. -/
def one : EReal := Ideal.ofBits .f32 0x3F800000#32

theorem one_eq : one = 1 := by
  unfold one; simp [Ideal.ofBits, Ideal.ieee, -EReal.coe_mul]; norm_num

/-- The gates and the blend, from the two projections `a`, `b` of a row and entry `j` of its hidden state. -/
def gate (a b : Fin 384 → EReal) (xh : EReal) (j : Fin 128) : EReal :=
  (one - Ideal.logistic (a (colU j) + b (colU j))) * xh
    + Ideal.logistic (a (colU j) + b (colU j))
        * Ideal.tanh (a (colH j) + Ideal.logistic (a (colR j) + b (colR j)) * b (colH j))

/-- Entry `j` of a node's new hidden state. -/
def newState (xm xcm xh : Fin 128 → EReal) (wm wh : WIdx → EReal) (bm bh : Fin 384 → EReal) (j : Fin 128) : EReal :=
  gate (proj (fun k => xm k + xcm k) wm bm) (proj xh wh bh) (xh j) j

/-- The sigmoid written as a quotient, `1 / (1 + e^(−x))`, is `logistic x`. -/
theorem div_one_add_exp_neg (x : EReal) : Ideal.div one (one + Ideal.exp (-x)) = Ideal.logistic x := by
  rw [one_eq]; rfl

/-! ## The packed operands

Both programs stack three 128×128 matrices along the rows and transpose the 384×128 result, and stack three
128-vectors into one 384-vector. The stacking is never opened: each program is shown to use these very terms. -/

theorem stacks_matrices : Shape.Concatenates [(⟨2, ![128, 128]⟩ : Shape), ⟨2, ![128, 128]⟩, ⟨2, ![128, 128]⟩] ⟨2, ![384, 128]⟩ 0 := by decide
theorem stacks_vectors : Shape.Concatenates [(⟨1, ![128]⟩ : Shape), ⟨1, ![128]⟩, ⟨1, ![128]⟩] ⟨1, ![384]⟩ 0 := by decide
theorem transposes_stack : (⟨2, ![384, 128]⟩ : Shape).Transposes [1, 0] ⟨2, ![128, 384]⟩ := by decide

/-- Three square weight matrices stacked along the rows, transposed: input feature by stacked output feature. -/
def packW (w1 w2 w3 : (⟨2, ![128, 128]⟩ : Shape).Idx → EReal) : WIdx → EReal :=
  transpose ⟨2, ![128, 384]⟩ [1, 0]
    (concatenate ⟨2, ![384, 128]⟩ 0 [⟨⟨2, ![128, 128]⟩, w1⟩, ⟨⟨2, ![128, 128]⟩, w2⟩, ⟨⟨2, ![128, 128]⟩, w3⟩] stacks_matrices)
    transposes_stack

/-- Three bias vectors stacked. -/
def packB (b1 b2 b3 : (⟨1, ![128]⟩ : Shape).Idx → EReal) : Fin 384 → EReal := fun n =>
  concatenate ⟨1, ![384]⟩ 0 [⟨⟨1, ![128]⟩, b1⟩, ⟨⟨1, ![128]⟩, b2⟩, ⟨⟨1, ![128]⟩, b3⟩] stacks_vectors (ix1 n)

/-! ## The whole result array -/

/-- Row `i 0`, column `i 1` of the result: the new state of that row of the three node arrays. -/
def wholeNew (a0 a1 a2 : (⟨2, ![200000, 128]⟩ : Shape).Idx → EReal) (wm wh : WIdx → EReal) (bm bh : Fin 384 → EReal) :
    (⟨2, ![200000, 128]⟩ : Shape).Idx → EReal := fun i =>
  newState (fun k => a0 (ix2 ⟨(i 0).val, idx2_lt0 i⟩ k)) (fun k => a1 (ix2 ⟨(i 0).val, idx2_lt0 i⟩ k))
    (fun k => a2 (ix2 ⟨(i 0).val, idx2_lt0 i⟩ k)) wm wh bm bh ⟨(i 1).val, idx2_lt1 i⟩

end Cert.NodeUpdate

end
-- ==== Proof.BlockValue.lean ====
/-
  The body's one stored value, read at an index.

  The body adds the two message blocks, multiplies the sum and the hidden-state block by the packed weights
  (a matrix product into a zero accumulator: at exact arithmetic, the plain sum over the 128 contracted features),
  adds the bias rows broadcast down the 2000 rows, cuts each 384-wide result into its three 128-wide column groups
  and blends. At row `p`, column `q` of the block this is `newState` of row `p` of the three input blocks.
-/
import proofs.«120250_j57363583205517_1_alg».proof.Proof.Gen.KernelIdeal.Skeleton
import proofs.«120250_j57363583205517_1_alg».proof.Proof.RowSpec
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Cert.NodeUpdate
open Idealize.ShloMosaic Idealize.ShloMosaic.ValueIdx

/-! ## The matrix product at an index -/

theorem lhs_axis0 (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide), dif_pos (show (0 : Fin S2000x128.rank) ∈ dot_S2000x128_S128x384_S2000x384_1_0_0_1_n_n.lhsNonContracting by decide)]
  rfl
theorem lhs_axis1 (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
theorem rhs_axis0 (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
theorem rhs_axis1 (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide), dif_pos (show (1 : Fin S128x384.rank) ∈ dot_S2000x128_S128x384_S2000x384_1_0_0_1_n_n.rhsNonContracting by decide)]
  rfl

/-- Row `p`, column `n` of the product of a 2000×128 block with a 128×384 operand into a zero accumulator. -/
theorem matmul_at (l : FVec Ideal S2000x128 .bf16) (r : FVec Ideal S128x384 .bf16) (p : Fin 2000) (n : Fin 384) :
    matmul dot_S2000x128_S128x384_S2000x384_1_0_0_1_n_n none l r (constant (F := Ideal) S2000x384 .f32 0x00000000#32) (ix2 p n)
      = ∑ k : Fin 128, l (ix2 p k) * r (ix2 k n) := by
  simp only [matmul]
  rw [Ideal.matmul_constant_zero_apply, ← Equiv.sum_comp (ValueIdx.contrEquiv1 dot_S2000x128_S128x384_S2000x384_1_0_0_1_n_n 128 rfl rfl).symm]
  refine Finset.sum_congr rfl fun k _ => ?_
  have hk := ValueIdx.contrEquiv1_symm_val dot_S2000x128_S128x384_S2000x384_1_0_0_1_n_n 128 rfl rfl k
  have el : dot_S2000x128_S128x384_S2000x384_1_0_0_1_n_n.lhsIdx (ix2 p n) ((ValueIdx.contrEquiv1 dot_S2000x128_S128x384_S2000x384_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x384_S2000x384_1_0_0_1_n_n.rhsIdx (ix2 p n) ((ValueIdx.contrEquiv1 dot_S2000x128_S128x384_S2000x384_1_0_0_1_n_n 128 rfl rfl).symm k) = ix2 k n := funext fun a => Fin.ext (by
    match a with
    | ⟨0, _⟩ => exact (rhs_axis0 _ _).trans hk
    | ⟨1, _⟩ => exact rhs_axis1 _ _)
  rw [el, er]

/-! ## One projection at an index -/

/-- The product plus the bias row broadcast down the rows, at row `p` and output feature `n`. -/
theorem proj_at (x : FVec Ideal S2000x128 .bf16) (w : FVec Ideal S128x384 .bf16) (b : FVec Ideal S1x384 .f32) (p : Fin 2000) (n : Fin 384) :
    addf (matmul dot_S2000x128_S128x384_S2000x384_1_0_0_1_n_n none x (shapeCast S128x384 w shapeCasts_S128x384_S128x384) (constant (F := Ideal) S2000x384 .f32 0x00000000#32))
        (broadcastTo S2000x384 (shapeCast S1x384 b shapeCasts_S1x384_S1x384) broadcasts_S1x384_S2000x384) (ix2 p n)
      = proj (fun k => x (ix2 p k)) w (fun n => b (ix2 0 n)) n := by
  rw [shapeCast_self, shapeCast_self]
  show matmul dot_S2000x128_S128x384_S2000x384_1_0_0_1_n_n none x w (constant (F := Ideal) S2000x384 .f32 0x00000000#32) (ix2 p n)
      + broadcastTo S2000x384 b broadcasts_S1x384_S2000x384 (ix2 p n) = _
  rw [matmul_at, broadcastTo_apply b broadcasts_S1x384_S2000x384 (ix2 p n) (ix2 0 n) (fun a => by
    match a with
    | ⟨0, _⟩ => rfl
    | ⟨1, _⟩ => rfl)]
  rfl

/-! ## A column group of a projection -/

/-- The 128-wide slice at column offset `off`, read at `(p, q)`, is the operand at `(p, off + q)`. -/
theorem slice_at (off : Nat) (h : S2000x384.Slices ![0, off] S2000x128) (v : FVec Ideal S2000x384 .f32) (p : Fin 2000) (q : Fin 128)
    (hq : off + q.val < 384) :
    extractStridedSlice S2000x128 ![0, off] v h (ix2 p q) = v (ix2 p ⟨off + q.val, hq⟩) :=
  extractStridedSlice_apply _ v h (ix2 p q) (ix2 p ⟨off + q.val, hq⟩) (fun a => by
    match a with
    | ⟨0, _⟩ => exact (Nat.zero_add _).symm
    | ⟨1, _⟩ => rfl)

/-! ## The gates and the blend over two projections -/

/-- With the two 384-wide projections given as vectors `A`, `B`, the blended value at `(p, q)` is `gate` of row `p` of each. -/
theorem blend_at (A B : FVec Ideal S2000x384 .f32) (xh : FVec Ideal S2000x128 .f32) (p : Fin 2000) (q : Fin 128) :
    addf
      (mulf
        (subf (broadcast S2000x128 (FloatOps.ofBits (F := Ideal) FTy.f32 0x3F800000#32))
          (logistic (addf (extractStridedSlice S2000x128 ![0, 128] A slices_S2000x384_o0_128_S2000x128)
            (extractStridedSlice S2000x128 ![0, 128] B slices_S2000x384_o0_128_S2000x128))))
        xh)
      (mulf
        (logistic (addf (extractStridedSlice S2000x128 ![0, 128] A slices_S2000x384_o0_128_S2000x128)
          (extractStridedSlice S2000x128 ![0, 128] B slices_S2000x384_o0_128_S2000x128)))
        (tanh (addf (extractStridedSlice S2000x128 ![0, 256] A slices_S2000x384_o0_256_S2000x128)
          (mulf
            (logistic (addf (extractStridedSlice S2000x128 ![0, 0] A slices_S2000x384_o0_0_S2000x128)
              (extractStridedSlice S2000x128 ![0, 0] B slices_S2000x384_o0_0_S2000x128)))
            (extractStridedSlice S2000x128 ![0, 256] B slices_S2000x384_o0_256_S2000x128)))))
      (ix2 p q)
      = gate (fun n => A (ix2 p n)) (fun n => B (ix2 p n)) (xh (ix2 p q)) q := by
  have hq := q.isLt
  unfold gate
  simp only [addf, mulf, subf, logistic, tanh, broadcast]
  rw [slice_at 128 slices_S2000x384_o0_128_S2000x128 A p q (by omega), slice_at 128 slices_S2000x384_o0_128_S2000x128 B p q (by omega),
    slice_at 256 slices_S2000x384_o0_256_S2000x128 A p q (by omega), slice_at 256 slices_S2000x384_o0_256_S2000x128 B p q (by omega),
    slice_at 0 slices_S2000x384_o0_0_S2000x128 A p q (by omega), slice_at 0 slices_S2000x384_o0_0_S2000x128 B p q (by omega)]
  rfl

/-! ## The payload -/

/-- The stored value at row `p`, column `q` of the block is the new state of row `p`: the narrowing of the operands
    is the identity, and each projection is `proj` of its row. -/
theorem payload_apply (x0 x1 x2 : Vec Ideal S2000x128 .f32) (x3 : Vec Ideal S128x384 .bf16) (x4 : Vec Ideal S1x384 .f32)
    (x5 : Vec Ideal S128x384 .bf16) (x6 : Vec Ideal S1x384 .f32) (p : Fin 2000) (q : Fin 128) :
    k0_pay1 x0 x1 x2 x3 x4 x5 x6 (ix2 p q)
      = newState (fun k => x0 (ix2 p k)) (fun k => x1 (ix2 p k)) (fun k => x2 (ix2 p k)) x3 x5
          (fun n => x4 (ix2 0 n)) (fun n => x6 (ix2 0 n)) q := by
  unfold k0_pay1
  refine (blend_at _ _ x2 p q).trans ?_
  unfold newState
  exact congrArg₂ (fun a b => gate a b (x2 (ix2 p q)) q)
    (funext fun n => proj_at (truncf FTy.bf16 (addf x0 x1) bitsLt_bf16_f32) x3 x4 p n)
    (funext fun n => proj_at (truncf FTy.bf16 x2 bitsLt_bf16_f32) x5 x6 p n)

end Cert.KernelIdeal.BlockValue

end
-- ==== Proof.ArrayValue.lean ====
/-
  From blocks to the whole result array.

  Grid point `t` is handed rows `2000 t … 2000 t + 1999` of the three node arrays and the whole packed operands,
  and writes rows `2000 t … 2000 t + 1999` of the result. So what point `t` writes back is block `t` of ONE
  function of the arrays as the region finds them — row by row the new state (`wholeNew`) —, the 100 blocks cover
  the 200000 rows, and the result array ends as that function. The packed operands the region finds are the
  stacked, transposed weights and the stacked biases of the arguments.
-/
import proofs.«120250_j57363583205517_1_alg».proof.Proof.FrameIdeal
import proofs.«120250_j57363583205517_1_alg».proof.Proof.BlockValue
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.NodeUpdate Cert.KernelIdeal.BlockValue Cert.NodeUpdate
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## One block, over variables -/

/-- If the three row blocks are rows `2000 T + p` of three arrays and the four operand blocks are the whole operands,
    then the payload at an index `j` of the block is `wholeNew` at the array index `2000 T` rows further down. -/
theorem block_eq (a0 a1 a2 : S200000x128.Idx → EReal) (wm wh : S128x384.Idx → EReal) (bm bh : S1x384.Idx → EReal)
    (x0 x1 x2 : Vec Ideal S2000x128 .f32) (x3 : Vec Ideal S128x384 .bf16) (x4 : Vec Ideal S1x384 .f32)
    (x5 : Vec Ideal S128x384 .bf16) (x6 : Vec Ideal S1x384 .f32) (T : Nat)
    (h0 : ∀ (p : Fin 2000) (k : Fin 128) (r : Fin 200000), r.val = T * 2000 + p.val → x0 (ix2 p k) = a0 (ix2 r k))
    (h1 : ∀ (p : Fin 2000) (k : Fin 128) (r : Fin 200000), r.val = T * 2000 + p.val → x1 (ix2 p k) = a1 (ix2 r k))
    (h2 : ∀ (p : Fin 2000) (k : Fin 128) (r : Fin 200000), r.val = T * 2000 + p.val → x2 (ix2 p k) = a2 (ix2 r k))
    (h3 : ∀ y, x3 y = wm y) (h4 : ∀ n : Fin 384, x4 (ix2 0 n) = bm (ix2 0 n))
    (h5 : ∀ y, x5 y = wh y) (h6 : ∀ n : Fin 384, x6 (ix2 0 n) = bh (ix2 0 n))
    (j : S2000x128.Idx) (i : S200000x128.Idx) (hi0 : (i 0).val = T * 2000 + (j 0).val) (hi1 : (i 1).val = (j 1).val) :
    k0_pay1 x0 x1 x2 x3 x4 x5 x6 j
      = wholeNew a0 a1 a2 wm wh (fun n => bm (ix2 0 n)) (fun n => bh (ix2 0 n)) i := by
  obtain ⟨p, q, rfl⟩ : ∃ (p : Fin 2000) (q : Fin 128), j = ix2 p q := ⟨j 0, j 1, eq_ix2 j⟩
  rw [payload_apply]
  unfold wholeNew
  have hq : (⟨(i 1).val, idx2_lt1 i⟩ : Fin 128) = q := Fin.ext hi1
  have e0 : (fun k => x0 (ix2 p k)) = fun k => a0 (ix2 ⟨(i 0).val, idx2_lt0 i⟩ k) := funext fun k => h0 p k _ hi0
  have e1 : (fun k => x1 (ix2 p k)) = fun k => a1 (ix2 ⟨(i 0).val, idx2_lt0 i⟩ k) := funext fun k => h1 p k _ hi0
  have e2 : (fun k => x2 (ix2 p k)) = fun k => a2 (ix2 ⟨(i 0).val, idx2_lt0 i⟩ k) := funext fun k => h2 p k _ hi0
  have e3 : (x3 : S128x384.Idx → EReal) = wm := funext h3
  have e5 : (x5 : S128x384.Idx → EReal) = wh := funext h5
  have e4 : (fun n => x4 (ix2 0 n)) = fun n => bm (ix2 0 n) := funext h4
  have e6 : (fun n => x6 (ix2 0 n)) = fun n => bh (ix2 0 n) := funext h6
  rw [hq, e0, e1, e2, e3, e5, e4, e6]

/-! ## What each point writes back -/

theorem hz : (![0, 0] : Fin 2 → Nat) = fun _ => 0 := funext fun a => by fin_cases a <;> rfl

/-- The printed index maps over the grid: the node arrays' blocks and the result's move one block of rows per point;
    the packed operands' stay at the origin. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_7.index t (0 : Fin 2) = t.val ∧ win0_7.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The region-entry contents the formulas are over. -/
abbrev found (c : Dev nD) : S200000x128.Idx → EReal :=
  wholeNew (V m c main_arg0) (V m c main_arg1) (V m c main_arg2) (V m c main_v5) (V m c main_v7)
    (fun n => V m c main_v8 (ix2 0 n)) (fun n => V m c main_v9 (ix2 0 n))

/-- Point `t` writes back block `t` of `found`. -/
theorem flushed_eq (c : Dev nD) (t : Fin cfg0.N) :
    (dats m 0 c).flushed 7 t = ((cfg0.win 7).blk t).view.read (Elt Ideal) (found m c) := by
  show (cfg0.win 7).cut (grid0.coords t) ((dats m 0 c).after 7 t) = _
  rw [after7]
  unfold outBlock
  rw [View.canon_unit_zero hz]
  simp only [View.ld_unit_zero (S := S2000x128) hz, View.ld_unit_zero (S := S128x384) hz, View.ld_unit_zero (S := S1x384) hz]
  obtain ⟨e00, e01, e10, e11, e20, e21, e70, e71, e30, e31, e40, e41, e50, e51, e60, e61⟩ := idx_facts t
  funext j
  refine block_eq (V m c main_arg0) (V m c main_arg1) (V m c main_arg2) (V m c main_v5) (V m c main_v7) (V m c main_v8) (V m c main_v9)
    (iblk m c 0 t) (iblk m c 1 t) (iblk m c 2 t) (iblk m c 3 t) (iblk m c 4 t) (iblk m c 5 t) (iblk m c 6 t) t.val
    ?_ ?_ ?_ ?_ ?_ ?_ ?_ j (((cfg0.win 7).blk t).view.emb j) ?_ ?_
  · intro p k r hr
    show V m c main_arg0 (((cfg0.win 0).blk t).view.emb (ix2 p k)) = V m c main_arg0 (ix2 r k)
    refine congrArg _ (funext fun a => Fin.ext ?_)
    match a with
    | ⟨0, _⟩ => show win0_0.index t (0 : Fin 2) * 2000 + 1 * p.val = r.val; omega
    | ⟨1, _⟩ => show win0_0.index t (1 : Fin 2) * 128 + 1 * k.val = k.val; omega
  · intro p k r hr
    show V m c main_arg1 (((cfg0.win 1).blk t).view.emb (ix2 p k)) = V m c main_arg1 (ix2 r k)
    refine congrArg _ (funext fun a => Fin.ext ?_)
    match a with
    | ⟨0, _⟩ => show win0_1.index t (0 : Fin 2) * 2000 + 1 * p.val = r.val; omega
    | ⟨1, _⟩ => show win0_1.index t (1 : Fin 2) * 128 + 1 * k.val = k.val; omega
  · intro p k r hr
    show V m c main_arg2 (((cfg0.win 2).blk t).view.emb (ix2 p k)) = V m c main_arg2 (ix2 r k)
    refine congrArg _ (funext fun a => Fin.ext ?_)
    match a with
    | ⟨0, _⟩ => show win0_2.index t (0 : Fin 2) * 2000 + 1 * p.val = r.val; omega
    | ⟨1, _⟩ => show win0_2.index t (1 : Fin 2) * 128 + 1 * k.val = k.val; omega
  · intro y
    show V m c main_v5 (((cfg0.win 3).blk t).view.emb y) = V m c main_v5 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 384 + 1 * (y 1).val = (y 1).val; omega
  · intro n
    show V m c main_v8 (((cfg0.win 4).blk t).view.emb (ix2 0 n)) = V m c main_v8 (ix2 0 n)
    refine congrArg _ (funext fun a => Fin.ext ?_)
    match a with
    | ⟨0, _⟩ => show win0_4.index t (0 : Fin 2) * 1 + 1 * 0 = 0; omega
    | ⟨1, _⟩ => show win0_4.index t (1 : Fin 2) * 384 + 1 * n.val = n.val; omega
  · intro y
    show V m c main_v7 (((cfg0.win 5).blk t).view.emb y) = V m c main_v7 y
    refine congrArg _ (funext fun a => Fin.ext ?_)
    match a with
    | ⟨0, _⟩ => show win0_5.index t (0 : Fin 2) * 128 + 1 * (y 0).val = (y 0).val; omega
    | ⟨1, _⟩ => show win0_5.index t (1 : Fin 2) * 384 + 1 * (y 1).val = (y 1).val; omega
  · intro n
    show V m c main_v9 (((cfg0.win 6).blk t).view.emb (ix2 0 n)) = V m c main_v9 (ix2 0 n)
    refine congrArg _ (funext fun a => Fin.ext ?_)
    match a with
    | ⟨0, _⟩ => show win0_6.index t (0 : Fin 2) * 1 + 1 * 0 = 0; omega
    | ⟨1, _⟩ => show win0_6.index t (1 : Fin 2) * 384 + 1 * n.val = n.val; omega
  · show win0_7.index t (0 : Fin 2) * 2000 + 1 * (j 0).val = t.val * 2000 + (j 0).val; omega
  · show win0_7.index t (1 : Fin 2) * 128 + 1 * (j 1).val = (j 1).val; omega

/-! ## The blocks cover the array -/

theorem mem_blk (t : Fin cfg0.N) (i : S200000x128.Idx) :
    i ∈ ((cfg0.win 7).blk t).view.set ↔ ∀ a : Fin 2, win0_7.index t a * S2000x128.size a ≤ (i a).val ∧ (i a).val < win0_7.index t a * S2000x128.size a + S2000x128.size a := by
  show i ∈ ((View.whole main_v10).slice (win0_7.rect t)).set ↔ _
  rw [View.set_slice_whole, Rect.mem_set_unit]
  exact Iff.rfl

/-- Row `r` lies in the block of point `r / 2000`. -/
theorem cover (i : S200000x128.Idx) : ∃ t : Fin cfg0.N, (cfg0.win 7).flush t = true ∧ i ∈ ((cfg0.win 7).blk t).view.set := by
  have hi0 : (i 0).val < 200000 := (i 0).isLt
  have hi1 : (i 1).val < 128 := (i 1).isLt
  let t : Fin cfg0.N := ⟨(i 0).val / 2000, by show (i 0).val / 2000 < 100; omega⟩
  refine ⟨t, flush0_7 t, ?_⟩
  rw [mem_blk]
  obtain ⟨e00, e01, e10, e11, e20, e21, e70, e71, e30, e31, e40, e41, e50, e51, e60, e61⟩ := idx_facts t
  have ht : t.val = (i 0).val / 2000 := rfl
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 128 ≤ (i 1).val ∧ (i 1).val < win0_7.index t (1 : Fin 2) * 128 + 128; omega

/-- The result array after the run, over the region-entry contents. -/
theorem final_found (c : Dev nD) : (dats m 0 c).arrAt 7 cfg0.N = found m c :=
  (dats m 0 c).arrAt_eq_of_cover 7 (found m c) (fun t _ => flushed_eq m c t) cover

/-! ## The packed operands the region finds -/

theorem found_wm (c : Dev nD) :
    (V m c main_v5 : S128x384.Idx → EReal)
      = packW (m ((c : Thread nD τ).loc main_arg3)) (m ((c : Thread nD τ).loc main_arg7)) (m ((c : Thread nD τ).loc main_arg11)) := by
  dsimp only [V, hostOps0]
  after_results
  rfl

theorem found_wh (c : Dev nD) :
    (V m c main_v7 : S128x384.Idx → EReal)
      = packW (m ((c : Thread nD τ).loc main_arg5)) (m ((c : Thread nD τ).loc main_arg9)) (m ((c : Thread nD τ).loc main_arg13)) := by
  dsimp only [V, hostOps0]
  after_results
  rfl

/-- A 384-vector reshaped to one row, read at `(0, n)`, is the vector at `n`. -/
theorem row_of_vector (v : S384.Idx → EReal) (n : Fin 384) :
    shapeCast S1x384 v shapeCasts_S384_S1x384 (ix2 0 n) = v (ix1 n) :=
  shapeCast_apply v shapeCasts_S384_S1x384 (ix2 0 n) (ix1 n) (by
    rw [Shape.rowMajor_val_one, Shape.rowMajor_val_two]
    show n.val = 0 * 384 + n.val
    omega)

theorem found_bm (c : Dev nD) :
    (fun n : Fin 384 => (V m c main_v8 : S1x384.Idx → EReal) (ix2 0 n))
      = packB (m ((c : Thread nD τ).loc main_arg4)) (m ((c : Thread nD τ).loc main_arg8)) (m ((c : Thread nD τ).loc main_arg12)) := by
  funext n
  have e : (V m c main_v8 : S1x384.Idx → EReal)
      = shapeCast S1x384 (concatenate S384 0 [⟨S128, m ((c : Thread nD τ).loc main_arg4)⟩, ⟨S128, m ((c : Thread nD τ).loc main_arg8)⟩, ⟨S128, m ((c : Thread nD τ).loc main_arg12)⟩]
          concatenates_S128_S128_S128_S384_d0) shapeCasts_S384_S1x384 := by
    dsimp only [V, hostOps0]
    after_results
    rfl
  show (V m c main_v8 : S1x384.Idx → EReal) (ix2 0 n) = _
  rw [e, row_of_vector]
  rfl

theorem found_bh (c : Dev nD) :
    (fun n : Fin 384 => (V m c main_v9 : S1x384.Idx → EReal) (ix2 0 n))
      = packB (m ((c : Thread nD τ).loc main_arg6)) (m ((c : Thread nD τ).loc main_arg10)) (m ((c : Thread nD τ).loc main_arg14)) := by
  funext n
  have e : (V m c main_v9 : S1x384.Idx → EReal)
      = shapeCast S1x384 (concatenate S384 0 [⟨S128, m ((c : Thread nD τ).loc main_arg6)⟩, ⟨S128, m ((c : Thread nD τ).loc main_arg10)⟩, ⟨S128, m ((c : Thread nD τ).loc main_arg14)⟩]
          concatenates_S128_S128_S128_S384_d0) shapeCasts_S384_S1x384 := by
    dsimp only [V, hostOps0]
    after_results
    rfl
  show (V m c main_v9 : S1x384.Idx → EReal) (ix2 0 n) = _
  rw [e, row_of_vector]
  rfl

/-! ## The result array, over the argument arrays -/

/-- The new hidden state of every node, from the fifteen arguments as launched. -/
abbrev result (c : Dev nD) : S200000x128.Idx → EReal :=
  wholeNew (m ((c : Thread nD τ).loc main_arg0)) (m ((c : Thread nD τ).loc main_arg1)) (m ((c : Thread nD τ).loc main_arg2))
    (packW (m ((c : Thread nD τ).loc main_arg3)) (m ((c : Thread nD τ).loc main_arg7)) (m ((c : Thread nD τ).loc main_arg11))) (packW (m ((c : Thread nD τ).loc main_arg5)) (m ((c : Thread nD τ).loc main_arg9)) (m ((c : Thread nD τ).loc main_arg13)))
    (packB (m ((c : Thread nD τ).loc main_arg4)) (m ((c : Thread nD τ).loc main_arg8)) (m ((c : Thread nD τ).loc main_arg12))) (packB (m ((c : Thread nD τ).loc main_arg6)) (m ((c : Thread nD τ).loc main_arg10)) (m ((c : Thread nD τ).loc main_arg14)))

theorem final (c : Dev nD) : (dats m 0 c).arrAt 7 cfg0.N = result m c := by
  rw [final_found]
  show wholeNew (V m c main_arg0) (V m c main_arg1) (V m c main_arg2) (V m c main_v5) (V m c main_v7)
    (fun n => V m c main_v8 (ix2 0 n)) (fun n => V m c main_v9 (ix2 0 n)) = _
  rw [V_main_arg0, V_main_arg1, V_main_arg2, found_wm, found_wh, found_bm, found_bh]

/-- Every weakly fair run ends with the result array at `result` and the arguments unchanged. -/
theorem run_value : θ_run defs (onTc (τ := τ) (main (F := Ideal))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 7).trans (final m c), kept_of_post m (dats m) (A_eq m) r h c⟩) (run_main m ρ)

end Cert.KernelIdeal.ArrayValue

end
-- ==== Proof.RefSide.lean ====
/-
  The reference, read at an index.

  The reference adds the two message arrays, multiplies the sum and the hidden-state array by the stacked, transposed
  weights (a host matrix product: at exact arithmetic the plain sum over the 128 contracted features), adds the stacked
  biases broadcast down the rows, cuts each 384-wide result into its three 128-wide column groups, and blends, with each
  sigmoid written as the quotient `1 / (1 + e^(−x))`. At row `r`, column `j` this is the new state of row `r`.
-/
import proofs.«120250_j57363583205517_1_alg».proof.Proof.Gen.ReferenceIdeal.Read
import proofs.«120250_j57363583205517_1_alg».proof.Proof.RowSpec

noncomputable section

namespace Cert.ReferenceIdeal.RefSide

open Cert.ReferenceIdeal Cert.ReferenceIdeal.Gen Cert.ReferenceIdeal.Read Cert.NodeUpdate
open Idealize.ShloMosaic Idealize.ShloMosaic.ValueIdx

variable (x0 x1 x2 : (⟨S200000x128, .f32⟩ : BufTy).Contents (Elt Ideal))
  (x3 x5 x7 x9 x11 x13 : (⟨S128x128, .f32⟩ : BufTy).Contents (Elt Ideal))
  (x4 x6 x8 x10 x12 x14 : (⟨S128, .f32⟩ : BufTy).Contents (Elt Ideal))

/-! ## The two projections -/

/-- The message-side projection at row `r`, output feature `n`. -/
theorem projM_at (r : Fin 200000) (n : Fin 384) :
    val_main_v9 (F := Ideal) x0 x1 x3 x4 x7 x8 x11 x12 (ix2 r n)
      = proj (fun k => x0 (ix2 r k) + x1 (ix2 r k)) (packW x3 x7 x11) (packB x4 x8 x12) n := by
  rw [val_main_v9_apply, val_main_v6_apply, val_main_v8_apply, val_main_v7_apply]
  have el : ∀ k, lidx_main_v6 (ix2 r n) k = ix2 r k := fun k => funext fun a => Fin.ext (by
    match a with
    | ⟨0, _⟩ => rfl
    | ⟨1, _⟩ => rfl)
  have er : ∀ k, ridx_main_v6 (ix2 r n) k = ix2 k n := fun k => funext fun a => Fin.ext (by
    match a with
    | ⟨0, _⟩ => rfl
    | ⟨1, _⟩ => rfl)
  have eb : idx_main_v7 (idx_main_v8 (ix2 r n)) = ix1 n := funext fun a => Fin.ext (by
    match a with
    | ⟨0, _⟩ => rfl)
  simp only [el, er, eb]
  rfl

/-- The hidden-side projection at row `r`, output feature `n`. -/
theorem projH_at (r : Fin 200000) (n : Fin 384) :
    val_main_v14 (F := Ideal) x2 x5 x6 x9 x10 x13 x14 (ix2 r n)
      = proj (fun k => x2 (ix2 r k)) (packW x5 x9 x13) (packB x6 x10 x14) n := by
  rw [val_main_v14_apply, val_main_v11_apply, val_main_v13_apply, val_main_v12_apply]
  have el : ∀ k, lidx_main_v11 (ix2 r n) k = ix2 r k := fun k => funext fun a => Fin.ext (by
    match a with
    | ⟨0, _⟩ => rfl
    | ⟨1, _⟩ => rfl)
  have er : ∀ k, ridx_main_v11 (ix2 r n) k = ix2 k n := fun k => funext fun a => Fin.ext (by
    match a with
    | ⟨0, _⟩ => rfl
    | ⟨1, _⟩ => rfl)
  have eb : idx_main_v12 (idx_main_v13 (ix2 r n)) = ix1 n := funext fun a => Fin.ext (by
    match a with
    | ⟨0, _⟩ => rfl)
  simp only [el, er, eb]
  rfl

/-! ## The six column groups -/

theorem slice_v15 (r : Fin 200000) (j : Fin 128) :
    val_main_v15 (F := Ideal) x0 x1 x3 x4 x7 x8 x11 x12 (ix2 r j) = val_main_v9 (F := Ideal) x0 x1 x3 x4 x7 x8 x11 x12 (ix2 r (colR j)) :=
  (val_main_v15_apply x0 x1 x3 x4 x7 x8 x11 x12 (ix2 r j)).trans (congrArg _ (funext fun a => Fin.ext (by
    match a with
    | ⟨0, _⟩ => rfl
    | ⟨1, _⟩ => first | rfl | exact (Nat.zero_add _).symm)))
theorem slice_v16 (r : Fin 200000) (j : Fin 128) :
    val_main_v16 (F := Ideal) x0 x1 x3 x4 x7 x8 x11 x12 (ix2 r j) = val_main_v9 (F := Ideal) x0 x1 x3 x4 x7 x8 x11 x12 (ix2 r (colU j)) :=
  (val_main_v16_apply x0 x1 x3 x4 x7 x8 x11 x12 (ix2 r j)).trans (congrArg _ (funext fun a => Fin.ext (by
    match a with
    | ⟨0, _⟩ => rfl
    | ⟨1, _⟩ => first | rfl | exact (Nat.zero_add _).symm)))
theorem slice_v17 (r : Fin 200000) (j : Fin 128) :
    val_main_v17 (F := Ideal) x0 x1 x3 x4 x7 x8 x11 x12 (ix2 r j) = val_main_v9 (F := Ideal) x0 x1 x3 x4 x7 x8 x11 x12 (ix2 r (colH j)) :=
  (val_main_v17_apply x0 x1 x3 x4 x7 x8 x11 x12 (ix2 r j)).trans (congrArg _ (funext fun a => Fin.ext (by
    match a with
    | ⟨0, _⟩ => rfl
    | ⟨1, _⟩ => first | rfl | exact (Nat.zero_add _).symm)))
theorem slice_v18 (r : Fin 200000) (j : Fin 128) :
    val_main_v18 (F := Ideal) x2 x5 x6 x9 x10 x13 x14 (ix2 r j) = val_main_v14 (F := Ideal) x2 x5 x6 x9 x10 x13 x14 (ix2 r (colR j)) :=
  (val_main_v18_apply x2 x5 x6 x9 x10 x13 x14 (ix2 r j)).trans (congrArg _ (funext fun a => Fin.ext (by
    match a with
    | ⟨0, _⟩ => rfl
    | ⟨1, _⟩ => first | rfl | exact (Nat.zero_add _).symm)))
theorem slice_v19 (r : Fin 200000) (j : Fin 128) :
    val_main_v19 (F := Ideal) x2 x5 x6 x9 x10 x13 x14 (ix2 r j) = val_main_v14 (F := Ideal) x2 x5 x6 x9 x10 x13 x14 (ix2 r (colU j)) :=
  (val_main_v19_apply x2 x5 x6 x9 x10 x13 x14 (ix2 r j)).trans (congrArg _ (funext fun a => Fin.ext (by
    match a with
    | ⟨0, _⟩ => rfl
    | ⟨1, _⟩ => first | rfl | exact (Nat.zero_add _).symm)))
theorem slice_v20 (r : Fin 200000) (j : Fin 128) :
    val_main_v20 (F := Ideal) x2 x5 x6 x9 x10 x13 x14 (ix2 r j) = val_main_v14 (F := Ideal) x2 x5 x6 x9 x10 x13 x14 (ix2 r (colH j)) :=
  (val_main_v20_apply x2 x5 x6 x9 x10 x13 x14 (ix2 r j)).trans (congrArg _ (funext fun a => Fin.ext (by
    match a with
    | ⟨0, _⟩ => rfl
    | ⟨1, _⟩ => first | rfl | exact (Nat.zero_add _).symm)))

/-! ## The gates and the blend -/

/-- The reference's blend of six column-group entries and a hidden-state entry, its sigmoids written as quotients. -/
def blendQ (rm um hm rh uh hh xh : EReal) : EReal :=
  (one - Ideal.div one (one + Ideal.exp (-(um + uh)))) * xh
    + Ideal.div one (one + Ideal.exp (-(um + uh)))
        * Ideal.tanh (hm + Ideal.div one (one + Ideal.exp (-(rm + rh))) * hh)

/-- The last stage at an index is that blend of the six slices there. -/
theorem result_blend (i : S200000x128.Idx) :
    val_main_v42 (F := Ideal) x0 x1 x2 x3 x4 x5 x6 x7 x8 x9 x10 x11 x12 x13 x14 i
      = blendQ (val_main_v15 (F := Ideal) x0 x1 x3 x4 x7 x8 x11 x12 i) (val_main_v16 (F := Ideal) x0 x1 x3 x4 x7 x8 x11 x12 i) (val_main_v17 (F := Ideal) x0 x1 x3 x4 x7 x8 x11 x12 i)
          (val_main_v18 (F := Ideal) x2 x5 x6 x9 x10 x13 x14 i) (val_main_v19 (F := Ideal) x2 x5 x6 x9 x10 x13 x14 i) (val_main_v20 (F := Ideal) x2 x5 x6 x9 x10 x13 x14 i) (x2 i) := by
  rw [val_main_v42_apply, val_main_v40_apply, val_main_v41_apply, val_main_v39_apply, val_main_v38_apply, val_main_cst_3_apply,
    val_main_v37_apply, val_main_v36_apply, val_main_v35_apply,
    val_main_v34_apply, val_main_v33_apply, val_main_cst_2_apply, val_main_v32_apply, val_main_v31_apply, val_main_cst_1_apply,
    val_main_v30_apply, val_main_v29_apply, val_main_v28_apply,
    val_main_v27_apply, val_main_v26_apply, val_main_cst_0_apply, val_main_v25_apply, val_main_v24_apply, val_main_cst_apply,
    val_main_v23_apply, val_main_v22_apply, val_main_v21_apply]
  rfl

/-- The reference's result at an index is the new state of that row. -/
theorem result_at (i : S200000x128.Idx) :
    val_main_v42 (F := Ideal) x0 x1 x2 x3 x4 x5 x6 x7 x8 x9 x10 x11 x12 x13 x14 i
      = wholeNew x0 x1 x2 (packW x3 x7 x11) (packW x5 x9 x13) (packB x4 x8 x12) (packB x6 x10 x14) i := by
  obtain ⟨r, j, rfl⟩ : ∃ (r : Fin 200000) (j : Fin 128), i = ix2 r j := ⟨i 0, i 1, eq_ix2 i⟩
  rw [result_blend, slice_v15, slice_v16, slice_v17, slice_v18, slice_v19, slice_v20,
    projM_at, projM_at, projM_at, projH_at, projH_at, projH_at]
  unfold blendQ
  rw [div_one_add_exp_neg, div_one_add_exp_neg]
  rfl

end Cert.ReferenceIdeal.RefSide

end
-- ==== Proof.lean ====
/-
  A gated update of 200000 node states, 128 features each: the Pallas kernel against its jnp reference.

  Both programs compute, for every node (row) `r` and feature `j`,
      new[r, j] = (1 − u) · X_h[r, j] + u · tanh (a(256 + j) + s · b(256 + j)),
      s = logistic (a(j) + b(j)),   u = logistic (a(128 + j) + b(128 + j)),
  where `a` and `b` are the two affine projections of the row into 384 = 3·128 features,
      a(n) = Σₖ (X_m[r, k] + X_cm[r, k]) · Wm[n, k] + bm[n],      b(n) = Σₖ X_h[r, k] · Wh[n, k] + bh[n],
  `Wm`, `Wh` being three 128×128 weight arguments stacked along the rows and `bm`, `bh` three bias arguments stacked.

  The kernel walks the rows in 100 blocks of 2000: it stacks and transposes the weights once on the host, and at each
  grid point loads a row block of the three node arrays with the packed operands, forms both projections by a matrix
  product into a zero accumulator, and overwrites the matching row block of the result. The reference does the same
  arithmetic on whole arrays with a host matrix product, and writes each sigmoid as the quotient `1 / (1 + e^(−x))`.

  On the extended reals the two agree entry by entry with no appeal to finiteness: a change of float format is the
  identity; a matrix product into zero and the host's product are the same finite sum; a block of rows of the whole-array
  function is that function on those rows; and the quotient form of the sigmoid is `logistic` once the printed word for
  the constant one is read as 1. Sums and products are never reordered, so no law that fails at infinities is used.

  The frames: the kernel's host stretch writes only buffers of its own, its region reads the node arrays through staged
  blocks and never writes an argument, and the body runs to its end at every grid point; the reference is straight-line
  host code. The ideal pass rewrote nothing, so there is nothing to preserve.
-/
import proofs.«120250_j57363583205517_1_alg».proof.Defs
import proofs.«120250_j57363583205517_1_alg».proof.Proof.Gen.Kernel
import proofs.«120250_j57363583205517_1_alg».proof.Proof.Gen.KernelIdeal
import proofs.«120250_j57363583205517_1_alg».proof.Proof.Gen.ReferenceIdeal
import proofs.«120250_j57363583205517_1_alg».proof.Proof.Gen.Pre_finite_inputs
import proofs.«120250_j57363583205517_1_alg».proof.Proof.FrameBits
import proofs.«120250_j57363583205517_1_alg».proof.Proof.ArrayValue
import proofs.«120250_j57363583205517_1_alg».proof.Proof.RefSide
import Idealize.ShloMosaic.Adequacy
import Idealize.ShloMosaic.Init

noncomputable section

namespace Cert.Proof

open Idealize.ShloMosaic Idealize.SL.Sem

/-- The word-level kernel runs to the end and leaves its fifteen arguments unchanged. -/
theorem frame_kernel : Cert.frame_Kernel := fun m ρ _ => Cert.Kernel.NodeUpdate.frame m ρ

/-- So does the kernel read at exact arithmetic. -/
theorem frame_kernelIdeal : Cert.frame_KernelIdeal := fun m ρ _ => Cert.KernelIdeal.NodeUpdate.frame m ρ

/-- The reference is straight-line host code: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the exact reading. -/
theorem preserves : Cert.preserves_Kernel_KernelIdeal := trivial

/-- From memories that agree on the fifteen arguments both programs end with the same result array: the kernel's run
    leaves `wholeNew` of its arguments block by block, the reference's last stage is `wholeNew` of its own, and the
    arguments are the same. -/
theorem algebraic : Cert.algebraic_KernelIdeal_ReferenceIdeal := by
  intro m ρ m' ρ' _ hagree
  refine ⟨fun c => Cert.KernelIdeal.ArrayValue.result m c, Cert.KernelIdeal.ArrayValue.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v42_eq, e0, e1, e2, e3, e4, e5, e6, e7, e8, e9, e10, e11, e12, e13, e14]
  exact funext fun i => Cert.ReferenceIdeal.RefSide.result_at _ _ _ _ _ _ _ _ _ _ _ _ _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
